-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x4096 .f32) (main_arg1 : FVec F S256x512 .f32) (main_arg2 : FVec F S256 .f32) (main_arg3 : FVec F S512x256 .f32) (main_arg4 : FVec F S512 .f32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S32x512 : Shape := ⟨2, ![32, 512]⟩
abbrev S8x128x4096 : Shape := ⟨3, ![8, 128, 4096]⟩
abbrev S8x128 : Shape := ⟨2, ![8, 128]⟩
abbrev S32x256 : Shape := ⟨2, ![32, 256]⟩
abbrev S1x256 : Shape := ⟨2, ![1, 256]⟩
abbrev S_ : Shape := ⟨0, ![]⟩
abbrev S1x512 : Shape := ⟨2, ![1, 512]⟩
abbrev S32x512x1 : Shape := ⟨3, ![32, 512, 1]⟩
abbrev S4x128x4096 : Shape := ⟨3, ![4, 128, 4096]⟩
abbrev S4x128x1 : Shape := ⟨3, ![4, 128, 1]⟩

abbrev nBuf : Space → Nat
  | .hbm => 29
  | .vmem => 10
  | .smem => 0
  | _ => 0

abbrev bufTy : (tb : Table) → Fin (tcTables nBuf tb) → BufTy
  | .hbm, ⟨0, _⟩ => ⟨S32x512x4096, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S32x512, .f32⟩
  | .hbm, ⟨6, _⟩ => ⟨S512x256, .f32⟩
  | .hbm, ⟨7, _⟩ => ⟨S32x256, .f32⟩
  | .hbm, ⟨8, _⟩ => ⟨S1x256, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32x256, .f32⟩
  | .hbm, ⟨13, _⟩ => ⟨S32x256, .f32⟩
  | .hbm, ⟨14, _⟩ => ⟨S256x512, .f32⟩
  | .hbm, ⟨15, _⟩ => ⟨S32x512, .f32⟩
  | .hbm, ⟨16, _⟩ => ⟨S1x512, .f32⟩
  | .hbm, ⟨17, _⟩ => ⟨S32x512, .f32⟩
  | .hbm, ⟨18, _⟩ => ⟨S32x512, .f32⟩
  | .hbm, ⟨19, _⟩ => ⟨S32x512, .f32⟩
  | .hbm, ⟨20, _⟩ => ⟨S32x512, .f32⟩
  | .hbm, ⟨21, _⟩ => ⟨S_, .f32⟩
  | .hbm, ⟨22, _⟩ => ⟨S32x512, .f32⟩
  | .hbm, ⟨23, _⟩ => ⟨S32x512, .f32⟩
  | .hbm, ⟨24, _⟩ => ⟨S_, .f32⟩
  | .hbm, ⟨25, _⟩ => ⟨S32x512, .f32⟩
  | .hbm, ⟨26, _⟩ => ⟨S32x512, .f32⟩
  | .hbm, ⟨27, _⟩ => ⟨S32x512x1, .f32⟩
  | .hbm, ⟨28, _⟩ => ⟨S32x512x4096, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S4x128x4096, .f32⟩
  | .local _ .vmem, ⟨5, _⟩ => ⟨S4x128x4096, .f32⟩
  | .local _ .vmem, ⟨6, _⟩ => ⟨S4x128x1, .f32⟩
  | .local _ .vmem, ⟨7, _⟩ => ⟨S4x128x1, .f32⟩
  | .local _ .vmem, ⟨8, _⟩ => ⟨S4x128x4096, .f32⟩
  | .local _ .vmem, ⟨9, _⟩ => ⟨S4x128x4096, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S4x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x128x4096_S8x128x4096_0_0_0 : ∀ a, (![0, 0, 0] : Fin 3 → Nat) a + S8x128x4096.size a ≤ S8x128x4096.size a
  h_S8x128x4096 : 0 < S8x128x4096.numel
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  transposes_S256x512_S512x256_1_0 : S256x512.Transposes [1, 0] S512x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  transposes_S512x256_S256x512_1_0 : S512x256.Transposes [1, 0] S256x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  shapeCasts_S32x512_S32x512x1 : S32x512.ShapeCasts S32x512x1
  inb_S4x128x4096_S4x128x4096_0_0_0 : ∀ a, (![0, 0, 0] : Fin 3 → Nat) a + S4x128x4096.size a ≤ S4x128x4096.size a
  h_S4x128x4096 : 0 < S4x128x4096.numel
  inb_S4x128x1_S4x128x1_0_0_0 : ∀ a, (![0, 0, 0] : Fin 3 → Nat) a + S4x128x1.size a ≤ S4x128x1.size a
  h_S4x128x1 : 0 < S4x128x1.numel
  shapeCasts_S4x128x1_S4x128x1 : S4x128x1.ShapeCasts S4x128x1
  broadcasts_S4x128x1_S4x128x4096 : S4x128x1.Broadcasts S4x128x4096
  dot_S32x512_S512x256_S32x256_1_0_0_1_n_n_wf : DotDims.WF S32x512 S512x256 S32x256 [1] [0] [0] [1] [] []
  dot_S32x256_S256x512_S32x512_1_0_0_1_n_n_wf : DotDims.WF S32x256 S256x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x512x4096.size a
  hwx0_0 : ∀ i : grid0.Coords, EltTy.bits .f32 = 32 ∨ (Rect.block (s := S32x512x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x4096.size a ≤ S32x512x4096.size a
  hwx1_0 : ∀ i : grid1.Coords, EltTy.bits .f32 = 32 ∨ (Rect.block (s := S32x512x4096) S4x128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x128x1.size a ≤ S32x512x1.size a
  hwx1_1 : ∀ i : grid1.Coords, EltTy.bits .f32 = 32 ∨ (Rect.block (s := S32x512x1) S4x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128x4096.size a ≤ S32x512x4096.size a
  hwx1_2 : ∀ i : grid1.Coords, EltTy.bits .f32 = 32 ∨ (Rect.block (s := S32x512x4096) S4x128x4096.size (cc1_transform_2 i) (hinb1_2 i)).WholeWords (EltTy.packing .f32)

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf

abbrev win0_0 : Pipeline.Window sig grid0 :=
  Pipeline.Window.ofSpec (Memref.whole main_arg0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4x128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4x128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S32x512 : Shape := ⟨2, ![32, 512]⟩
abbrev S32x256 : Shape := ⟨2, ![32, 256]⟩
abbrev S1x256 : Shape := ⟨2, ![1, 256]⟩
abbrev S1x512 : Shape := ⟨2, ![1, 512]⟩
abbrev S32x512x1 : Shape := ⟨3, ![32, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S512x256, .f32⟩
  | .hbm, ⟨11, _⟩ => ⟨S32x256, .f32⟩
  | .hbm, ⟨12, _⟩ => ⟨S1x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S256x512, .f32⟩
  | .hbm, ⟨19, _⟩ => ⟨S32x512, .f32⟩
  | .hbm, ⟨20, _⟩ => ⟨S1x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512x1, .f32⟩
  | .hbm, ⟨32, _⟩ => ⟨S32x512x4096, .f32⟩
  | .hbm, ⟨33, _⟩ => ⟨S32x512x4096, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S32x512x4096_S32x512_d2 : S32x512x4096.ReducesTo [2] S32x512
  h_S_ : 0 < S_.numel
  bcast_S_S32x512 : S_.BroadcastsInDim S32x512 (![] : Fin 0 → Fin S32x512.rank)
  transposes_S256x512_S512x256_1_0 : S256x512.Transposes [1, 0] S512x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  transposes_S512x256_S256x512_1_0 : S512x256.Transposes [1, 0] S256x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1_0_1 : S32x512.BroadcastsInDim S32x512x1 (![0, 1] : Fin 2 → Fin S32x512x1.rank)
  bcast_S32x512x1_S32x512x4096_0_1_2 : S32x512x1.BroadcastsInDim S32x512x4096 (![0, 1, 2] : Fin 3 → Fin S32x512x4096.rank)
  dot_S32x512_S512x256_S32x256_1_0_0_1_n_n_wf : DotDims.WF S32x512 S512x256 S32x256 [1] [0] [0] [1] [] []
  dot_S32x256_S256x512_S32x512_1_0_0_1_n_n_wf : DotDims.WF S32x256 S256x512 S32x512 [1] [0] [0] [1] [] []

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf

class Facts : Prop extends Facts₀ where

variable [Facts]
-- ==== Proof.Spec.lean ====
/-
  The mathematics of the squeeze-and-excite layer, as functions of whole arrays over the extended reals.

  For an input x of shape [32, 512, 4096]:
  * `rowMean x` is the mean of each of the 32·512 rows over its 4096 entries: the row's sum divided by 4096;
  * `scaleRows x g` multiplies every entry of row (b, c) by that row's gate value g (b, c).
  The layer's result is `scaleRows x (gate (rowMean x))`, where the gate is a small two-layer network
  applied to the matrix of row means (stated with the programs, not here).
-/
import Idealize.ShloMosaic.PureOps.Ideal
import Idealize.ShloMosaic.Lib.ValueIdx

noncomputable section

namespace Cert.SqueezeExcite

open Idealize.ShloMosaic Idealize.ShloMosaic.ValueIdx

/-- The shape of the input and of the result. -/
abbrev SX : Shape := ⟨3, ![32, 512, 4096]⟩
/-- The shape of the matrix of row means and of the gate. -/
abbrev SG : Shape := ⟨2, ![32, 512]⟩
/-- The gate with a trailing unit axis, as the scaling kernel reads it. -/
abbrev SG1 : Shape := ⟨3, ![32, 512, 1]⟩

/-- The mean of row (b, c): the sum of its 4096 entries divided by the real number 4096. -/
def rowMean (x : SX.Idx → EReal) : SG.Idx → EReal :=
  fun i => Ideal.div (∑ k : Fin 4096, x (ix3 (i 0) (i 1) k)) (Ideal.ofBits .f32 0x45800000#32)

/-- Every entry of row (b, c) multiplied by the gate's value for that row. -/
def scaleRows (x : SX.Idx → EReal) (g : SG.Idx → EReal) : SX.Idx → EReal :=
  fun i => x i * g (ix2 (i 0) (i 1))

/-- The same scaling with the gate given as a [32, 512, 1] array: row (b, c) is multiplied by its entry (b, c, 0). -/
def scaleRows1 (x : SX.Idx → EReal) (g : SG1.Idx → EReal) : SX.Idx → EReal :=
  fun i => x i * g (ix3 (i 0) (i 1) (0 : Fin 1))

end Cert.SqueezeExcite

end
-- ==== Proof.Pool.lean ====
/-
  The pooling region. Its grid has 4 × 4 points; point (i, j) loads the block of rows b ∈ [8i, 8i + 8),
  c ∈ [128j, 128j + 128) of the input, all 4096 entries of each row, sums each row, divides by 4096, and
  writes the 8 × 128 block of row means at block position (i, j) of the output. The 16 blocks tile the
  32 × 512 output, so after the region the output array is the matrix of row means of the input.
-/
import proofs.«131503_j1752346657530_1_alg».proof.Proof.Gen.KernelIdeal.Frame
import proofs.«131503_j1752346657530_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Cert.KernelIdeal Cert.KernelIdeal.Gen Cert.SqueezeExcite
open Idealize.ShloMosaic Idealize.ShloMosaic.TcCoe Idealize.ShloMosaic.ValueIdx
open Idealize.SL Idealize.SL.Sem
open Idealize.ShloMosaic.Pipeline (Dat Cfg Window)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's stored value at entry (p, q) of a block: the sum of the 4096 loaded entries of row (p, q),
    divided by 4096. The lane reduction starts from the neutral element, so it is the plain sum. -/
theorem pay_at (x0 : Vec Ideal S8x128x4096 .f32) (p : Fin 8) (q : Fin 128) :
    k0_pay1 x0 (ix2 p q) = Ideal.div (∑ k : Fin 4096, x0 (ix3 p q k)) (Ideal.ofBits .f32 0x45800000#32) := by
  unfold k0_pay1
  show Ideal.div (multiReduction (F := Ideal) .add [2] S8x128 x0 0x00000000#32 reduces_S8x128x4096_S8x128 _ _ (ix2 p q))
      (Ideal.ofBits .f32 0x45800000#32) = _
  refine congrArg (Ideal.div · _) ?_
  refine (Ideal.multiReduction_add_single x0 _ reduces_S8x128x4096_S8x128 _ _ (ix2 p q)).trans ?_
  exact Finset.sum_congr rfl fun k _ => congrArg x0 (funext fun a => Fin.ext (by
    match a with
    | ⟨0, _⟩ => rfl
    | ⟨1, _⟩ => rfl
    | ⟨2, _⟩ => rfl))

/-- A loaded block that is the rows [o0, o0 + 8) × [o1, o1 + 128) of an array `x` (entry y of the block is
    entry `e y` of `x`, shifted by (o0, o1, 0)) gives, at entry y of the stored block, the mean of row
    (o0 + y 0, o1 + y 1) of `x`. -/
theorem block_at (x : SX.Idx → EReal) (x0 : Vec Ideal S8x128x4096 .f32) (e : S8x128x4096.Idx → SX.Idx) (o0 o1 : Nat)
    (hx : ∀ y', x0 y' = x (e y'))
    (he : ∀ y', ((e y') 0).val = o0 + (y' 0).val ∧ ((e y') 1).val = o1 + (y' 1).val ∧ ((e y') 2).val = (y' 2).val)
    (y : S8x128.Idx) (i : SG.Idx) (h0 : (i 0).val = o0 + (y 0).val) (h1 : (i 1).val = o1 + (y 1).val) :
    k0_pay1 x0 y = rowMean x i := by
  obtain ⟨p, q, rfl⟩ : ∃ (p : Fin 8) (q : Fin 128), y = ix2 p q := ⟨y 0, y 1, eq_ix2 y⟩
  rw [pay_at]
  unfold rowMean
  refine congrArg (Ideal.div · _) (Finset.sum_congr rfl fun k _ => ?_)
  rw [hx]
  refine congrArg x (funext fun a => Fin.ext ?_)
  obtain ⟨e0, e1, e2⟩ := he (ix3 p q k)
  match a with
  | ⟨0, _⟩ => exact e0.trans h0.symm
  | ⟨1, _⟩ => exact e1.trans h1.symm
  | ⟨2, _⟩ => exact e2

/-- The index maps over the grid: the input block and the output block sit at the same block position on the
    two row axes, the input block takes the whole lane axis, and block positions run over 0..3. -/
theorem idx_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every block position of the output is some grid point's. -/
theorem idx_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

variable (V : (c : Dev nD) → (b : Ref sig .tc) → Buf (Elt Ideal) ((c : Thread nD τ).loc b))

/-- What grid point `t` writes back is block `t` of the matrix of row means of the input array. -/
theorem block_eq (c : Dev nD) (t : Fin cfg0.N) :
    (dat0 V c).flushed 1 t = ((cfg0.win 1).blk t).view.read (Elt Ideal) (rowMean (V c main_arg0)) := by
  show (cfg0.win 1).cut (grid0.coords t) ((dat0 V c).after 1 t) = _
  rw [after0_1]
  unfold out0_1
  rw [View.canon_unit_zero zero2]
  simp only [View.ld_unit_zero (S := S8x128x4096) zero3]
  obtain ⟨f0, f1, f2, -, -⟩ := idx_facts t
  funext j
  show k0_pay1 (iblk0 V c 0 t) j = rowMean (V c main_arg0) (((cfg0.win 1).blk t).view.emb j)
  refine block_at (V c main_arg0) (iblk0 V c 0 t) (((cfg0.win 0).blk t).view.emb)
    (win0_1.index t (0 : Fin 2) * 8) (win0_1.index t (1 : Fin 2) * 128) (fun y' => rfl) (fun y' => ⟨?_, ?_, ?_⟩) j
    (((cfg0.win 1).blk t).view.emb j) ?_ ?_
  · show win0_0.index t (0 : Fin 3) * 8 + 1 * (y' 0).val = _; omega
  · show win0_0.index t (1 : Fin 3) * 128 + 1 * (y' 1).val = _; omega
  · show win0_0.index t (2 : Fin 3) * 4096 + 1 * (y' 2).val = _; omega
  · show win0_1.index t (0 : Fin 2) * 8 + 1 * (j 0).val = _; omega
  · show win0_1.index t (1 : Fin 2) * 128 + 1 * (j 1).val = _; omega

/-- An index of the output is in point `t`'s block iff each coordinate is in the block's range on its axis. -/
theorem mem_blk (t : Fin cfg0.N) (i : S32x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- The blocks tile the output: row (b, c) lies in the block at position (b / 8, c / 128). -/
theorem cover (i : S32x512.Idx) : ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := idx_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the region the output array is the matrix of row means of the input array as the region found it. -/
theorem pooled (c : Dev nD) : (dat0 V c).arrAt 1 cfg0.N = rowMean (V c main_arg0) :=
  (dat0 V c).arrAt_eq_of_cover 1 (rowMean (V c main_arg0)) (fun t _ => block_eq V c t) cover

end Cert.KernelIdeal.Pool

end
-- ==== Proof.Scale.lean ====
/-
  The scaling region. Its grid has 8 × 4 points; point (i, j) loads the block of rows b ∈ [4i, 4i + 4),
  c ∈ [128j, 128j + 128) of the input with all 4096 entries of each row, and the same rows of the gate (one
  entry per row), multiplies every entry of a row by the row's gate, and writes the block at the same position
  of the output. The 32 blocks tile the 32 × 512 × 4096 output, so after the region the output array is the
  input with every row multiplied by its gate.
-/
import proofs.«131503_j1752346657530_1_alg».proof.Proof.Gen.KernelIdeal.Frame
import proofs.«131503_j1752346657530_1_alg».proof.Proof.Spec
import Idealize.ShloMosaic.Lib.Pipeline.Value
import Idealize.ShloMosaic.Lib.ValueIdx

set_option maxRecDepth 16384

noncomputable section

namespace Cert.KernelIdeal.Scale

open Cert.KernelIdeal Cert.KernelIdeal.Gen Cert.SqueezeExcite
open Idealize.ShloMosaic Idealize.ShloMosaic.TcCoe Idealize.ShloMosaic.ValueIdx
open Idealize.SL Idealize.SL.Sem
open Idealize.ShloMosaic.Pipeline (Dat Cfg Window)

theorem zero3 : (![0, 0, 0] : Fin 3 → Nat) = fun _ => 0 := funext fun a => by fin_cases a <;> rfl

/-- The body's stored value at entry (a, p, l) of a block: the loaded entry times the gate of its row; the
    gate block has one entry per row, broadcast along the lane axis. -/
theorem pay_at (x0 : Vec Ideal S4x128x4096 .f32) (x1 : Vec Ideal S4x128x1 .f32) (a : Fin 4) (p : Fin 128) (l : Fin 4096) :
    k1_pay1 x0 x1 (ix3 a p l) = x0 (ix3 a p l) * x1 (ix3 a p (0 : Fin 1)) := by
  unfold k1_pay1
  show x0 (ix3 a p l) * broadcastTo S4x128x4096 (shapeCast S4x128x1 x1 shapeCasts_S4x128x1_S4x128x1)
      broadcasts_S4x128x1_S4x128x4096 (ix3 a p l) = _
  rw [shapeCast_self]
  refine congrArg (x0 (ix3 a p l) * ·) ?_
  exact broadcastTo_apply x1 broadcasts_S4x128x1_S4x128x4096 (ix3 a p l) (ix3 a p (0 : Fin 1)) (fun d => by
    match d with
    | ⟨0, _⟩ => show a.val = if (4 : Nat) = 1 then 0 else a.val; rw [if_neg (by decide)]
    | ⟨1, _⟩ => show p.val = if (128 : Nat) = 1 then 0 else p.val; rw [if_neg (by decide)]
    | ⟨2, _⟩ => show 0 = if (1 : Nat) = 1 then 0 else l.val; rw [if_pos rfl])

/-- Loaded blocks that are the rows [o0, o0 + 4) × [o1, o1 + 128) of an array `x` and of a gate `g` give, at
    entry y of the stored block, entry `e0 y` of `x` scaled by its row's gate. -/
theorem block_at (x : SX.Idx → EReal) (g : SG1.Idx → EReal) (x0 : Vec Ideal S4x128x4096 .f32) (x1 : Vec Ideal S4x128x1 .f32)
    (e0 : S4x128x4096.Idx → SX.Idx) (e1 : S4x128x1.Idx → SG1.Idx) (o0 o1 : Nat)
    (hx0 : ∀ y', x0 y' = x (e0 y')) (hx1 : ∀ y', x1 y' = g (e1 y'))
    (he0 : ∀ y', ((e0 y') 0).val = o0 + (y' 0).val ∧ ((e0 y') 1).val = o1 + (y' 1).val)
    (he1 : ∀ y', ((e1 y') 0).val = o0 + (y' 0).val ∧ ((e1 y') 1).val = o1 + (y' 1).val)
    (y : S4x128x4096.Idx) (i : SX.Idx) (hi : i = e0 y) :
    k1_pay1 x0 x1 y = scaleRows1 x g i := by
  subst hi
  obtain ⟨r, p, l, rfl⟩ : ∃ (r : Fin 4) (p : Fin 128) (l : Fin 4096), y = ix3 r p l := ⟨y 0, y 1, y 2, eq_ix3 y⟩
  rw [pay_at, hx0, hx1]
  unfold scaleRows1
  refine congrArg (x (e0 _) * g ·) (funext fun a => Fin.ext ?_)
  obtain ⟨a0, a1⟩ := he0 (ix3 r p l)
  obtain ⟨b0, b1⟩ := he1 (ix3 r p (0 : Fin 1))
  match a with
  | ⟨0, _⟩ => exact b0.trans a0.symm
  | ⟨1, _⟩ => exact b1.trans a1.symm
  | ⟨2, _⟩ =>
    have h2 : ((e1 (ix3 r p (0 : Fin 1))) 2).val < 1 := ((e1 (ix3 r p (0 : Fin 1))) 2).isLt
    show ((e1 (ix3 r p (0 : Fin 1))) 2).val = 0
    omega

/-- The index maps over the grid: the three windows sit at the same block position on the two row axes, the
    lane axis is taken whole, and block positions run over 0..7 and 0..3. -/
theorem idx_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_2.index t (2 : Fin 3) = 0
    ∧ win1_2.index t (0 : Fin 3) ≤ 7 ∧ win1_2.index t (1 : Fin 3) ≤ 3 :=
  (by decide +kernel : ∀ t : Fin grid1.N, _)

/-- Every block position of the output is some grid point's. -/
theorem idx_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

variable (V : (c : Dev nD) → (b : Ref sig .tc) → Buf (Elt Ideal) ((c : Thread nD τ).loc b))

/-- What grid point `t` writes back is block `t` of the input array with every row scaled by its gate. -/
theorem block_eq (c : Dev nD) (t : Fin cfg1.N) :
    (dat1 V c).flushed 2 t = ((cfg1.win 2).blk t).view.read (Elt Ideal) (scaleRows1 (V c main_arg0) (V c main_v18)) := by
  show (cfg1.win 2).cut (grid1.coords t) ((dat1 V c).after 2 t) = _
  rw [after1_2]
  unfold out1_2
  rw [View.canon_unit_zero zero3]
  simp only [View.ld_unit_zero (S := S4x128x4096) zero3, View.ld_unit_zero (S := S4x128x1) zero3]
  obtain ⟨f0, f1, f2, g0, g1, -, -, -⟩ := idx_facts t
  funext j
  show k1_pay1 (iblk1 V c 0 t) (iblk1 V c 1 t) j
    = scaleRows1 (V c main_arg0) (V c main_v18) (((cfg1.win 2).blk t).view.emb j)
  refine block_at (V c main_arg0) (V c main_v18) (iblk1 V c 0 t) (iblk1 V c 1 t)
    (((cfg1.win 0).blk t).view.emb) (((cfg1.win 1).blk t).view.emb)
    (win1_2.index t (0 : Fin 3) * 4) (win1_2.index t (1 : Fin 3) * 128) (fun y' => rfl) (fun y' => rfl)
    (fun y' => ⟨?_, ?_⟩) (fun y' => ⟨?_, ?_⟩) j (((cfg1.win 2).blk t).view.emb j) (funext fun a => Fin.ext ?_)
  · show win1_0.index t (0 : Fin 3) * 4 + 1 * (y' 0).val = _; omega
  · show win1_0.index t (1 : Fin 3) * 128 + 1 * (y' 1).val = _; omega
  · show win1_1.index t (0 : Fin 3) * 4 + 1 * (y' 0).val = _; omega
  · show win1_1.index t (1 : Fin 3) * 128 + 1 * (y' 1).val = _; omega
  · match a with
    | ⟨0, _⟩ => show win1_2.index t (0 : Fin 3) * 4 + 1 * (j 0).val = win1_0.index t (0 : Fin 3) * 4 + 1 * (j 0).val; omega
    | ⟨1, _⟩ => show win1_2.index t (1 : Fin 3) * 128 + 1 * (j 1).val = win1_0.index t (1 : Fin 3) * 128 + 1 * (j 1).val; omega
    | ⟨2, _⟩ => show win1_2.index t (2 : Fin 3) * 4096 + 1 * (j 2).val = win1_0.index t (2 : Fin 3) * 4096 + 1 * (j 2).val; omega

/-- An index of the output is in point `t`'s block iff each coordinate is in the block's range on its axis. -/
theorem mem_blk (t : Fin cfg1.N) (i : S32x512x4096.Idx) :
    i ∈ ((cfg1.win 2).blk t).view.set ↔ ∀ a : Fin 3, win1_2.index t a * S4x128x4096.size a ≤ (i a).val ∧ (i a).val < win1_2.index t a * S4x128x4096.size a + S4x128x4096.size a := by
  show i ∈ ((View.whole main_v19).slice (win1_2.rect t)).set ↔ _
  rw [View.set_slice_whole, Rect.mem_set_unit]
  exact Iff.rfl

/-- The blocks tile the output: entry (b, c, l) lies in the block at position (b / 4, c / 128, 0). -/
theorem cover (i : S32x512x4096.Idx) : ∃ t : Fin cfg1.N, (cfg1.win 2).flush t = true ∧ i ∈ ((cfg1.win 2).blk t).view.set := by
  have hi0 : (i 0).val < 32 := (i 0).isLt
  have hi1 : (i 1).val < 512 := (i 1).isLt
  have hi2 : (i 2).val < 4096 := (i 2).isLt
  obtain ⟨t, ht⟩ := idx_onto ⟨(i 0).val / 4, by omega⟩ ⟨(i 1).val / 128, by omega⟩
  have q0 : win1_2.index t (0 : Fin 3) = (i 0).val / 4 := congrFun ht 0
  have q1 : win1_2.index t (1 : Fin 3) = (i 1).val / 128 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 4 ≤ (i 0).val ∧ (i 0).val < win1_2.index t (0 : Fin 3) * 4 + 4; omega
  | ⟨1, _⟩ => show win1_2.index t (1 : Fin 3) * 128 ≤ (i 1).val ∧ (i 1).val < win1_2.index t (1 : Fin 3) * 128 + 128; omega
  | ⟨2, _⟩ => show win1_2.index t (2 : Fin 3) * 4096 ≤ (i 2).val ∧ (i 2).val < win1_2.index t (2 : Fin 3) * 4096 + 4096; omega

/-- After the region the output array is the input array, as the region found it, with every row scaled by the
    gate array as the region found it. -/
theorem scaled (c : Dev nD) : (dat1 V c).arrAt 2 cfg1.N = scaleRows1 (V c main_arg0) (V c main_v18) :=
  (dat1 V c).arrAt_eq_of_cover 2 (scaleRows1 (V c main_arg0) (V c main_v18)) (fun t _ => block_eq V c t) cover

end Cert.KernelIdeal.Scale

end
-- ==== Proof.Gate.lean ====
/-
  The excitation gate: the two-layer network both programs apply, on the host, to the matrix s of row means.
  With weights w1 [256, 512], w2 [512, 256] and biases b1 [256], b2 [512]:
      h    = max (s · w1ᵀ + b1, 0)                      [32, 256]
      gate = 1 / (1 + exp (−(h · w2ᵀ + b2)))             [32, 512]
  Both programs spell it with the same operations and the same constants, so it is kept as ONE function of
  its five operands and never opened: the two sides are compared by the values that go into it.
-/
import proofs.«131503_j1752346657530_1_alg».proof.Proof.Gen.KernelIdeal
import Idealize.ShloMosaic.PureOps.Ideal

noncomputable section

namespace Cert.KernelIdeal.Gate

open Cert.KernelIdeal Cert.KernelIdeal.Gen Idealize.ShloMosaic

variable {F : FTy → Type} [FloatOps F]

/-- The gate as a function of the row means and the four parameter arrays. -/
def excite (s : FVec F S32x512 .f32) (w1 : FVec F S256x512 .f32) (b1 : FVec F S256 .f32)
    (w2 : FVec F S512x256 .f32) (b2 : FVec F S512 .f32) : FVec F S32x512 .f32 :=
  Host.divf (F := F) (broadcastInDim S32x512 ![] bcast_S_S32x512 (constant (F := F) S_ .f32 0x3F800000#32))
    (addf (broadcastInDim S32x512 ![] bcast_S_S32x512 (constant (F := F) S_ .f32 0x3F800000#32))
      (Host.exp (F := F) (Host.negf (F := F) (addf
        (Host.dotGeneral (F := F) dot_S32x256_S256x512_S32x512_1_0_0_1_n_n none
          (maximumf
            (addf
              (Host.dotGeneral (F := F) dot_S32x512_S512x256_S32x256_1_0_0_1_n_n none s
                (transpose S512x256 [1, 0] w1 transposes_S256x512_S512x256_1_0))
              (broadcastInDim S32x256 ![0, 1] bcast_S1x256_S32x256_0_1 (broadcastInDim S1x256 ![1] bcast_S256_S1x256_1 b1)))
            (broadcastInDim S32x256 ![] bcast_S_S32x256 (constant (F := F) S_ .f32 0x00000000#32)))
          (transpose S256x512 [1, 0] w2 transposes_S512x256_S256x512_1_0))
        (broadcastInDim S32x512 ![0, 1] bcast_S1x512_S32x512_0_1 (broadcastInDim S1x512 ![1] bcast_S512_S1x512_1 b2))))))

end Cert.KernelIdeal.Gate

end
-- ==== Proof.LibTrailingUnit.lean ====
/-
  A reshape that appends a unit axis, read at an index: the array [a, b] viewed as [a, b, 1] holds at (i, j, 0)
  what the array holds at (i, j), because both indices have the same row-major position i·b + j.
-/
import Idealize.ShloMosaic.Lib.Pipeline.Value
import Idealize.ShloMosaic.Lib.ValueIdx

noncomputable section

namespace Cert.LibTrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Cert.LibTrailingUnit

end
-- ==== Proof.Whole.lean ====
/-
  The whole kernel program at the ideal instance: the result array after the run, as one function of the
  arguments. The pooling region leaves the matrix of row means of the input; the host operations between the
  regions turn it into the gate and reshape the gate to [32, 512, 1]; the scaling region leaves the input with
  every row multiplied by its gate.
-/
import proofs.«131503_j1752346657530_1_alg».proof.Proof.KernelRun
import proofs.«131503_j1752346657530_1_alg».proof.Proof.Pool
import proofs.«131503_j1752346657530_1_alg».proof.Proof.Scale
import proofs.«131503_j1752346657530_1_alg».proof.Proof.Gate
import proofs.«131503_j1752346657530_1_alg».proof.Proof.LibTrailingUnit
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.KernelIdeal.Gate Cert.SqueezeExcite
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The pooling region writes none of the parameter arrays. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)

/-- After the pooling region its output array holds the row means of the input as launched. -/
theorem W1_pooled (c : Dev nD) :
    W1 m ρ c (Proc.devRef .tc main_v0) = rowMean (m ((c : Thread nD τ).loc main_arg0)) :=
  (W1_arr m ρ c 1).trans (Pool.pooled (V0 m ρ) c)

/-- The scaling region finds the input array as launched. -/
theorem W4_arg0 (c : Dev nD) : W4 m ρ c (Proc.devRef .tc main_arg0) = m ((c : Thread nD τ).loc main_arg0) :=
  ((W5_arr m ρ c 0).trans (((dat1 (V4 m ρ) c).arrAt_in 0 rfl _).trans (A_eq1 (V4 m ρ) c 0))).symm.trans (W5_main_arg0 m ρ c)

/-- The scaling region finds, as its second operand, the gate of the pooled matrix, reshaped to [32, 512, 1]. -/
theorem W4_gate (c : Dev nD) :
    W4 m ρ c (Proc.devRef .tc main_v18) = fun i => shapeCast S32x512x1
      (excite (F := Ideal) (W1 m ρ c (Proc.devRef .tc main_v0)) (W1 m ρ c (Proc.devRef .tc main_arg1))
        (W1 m ρ c (Proc.devRef .tc main_arg2)) (W1 m ρ c (Proc.devRef .tc main_arg3)) (W1 m ρ c (Proc.devRef .tc main_arg4)))
      shapeCasts_S32x512_S32x512x1 i := by
  show StableHlo.after hostOps1_2 (StableHlo.after hostOps1_1 (StableHlo.after hostOps1 (W1 m ρ c))) (Proc.devRef .tc main_v18) = _
  after_results
  rfl

/-- Scaling by a gate that was reshaped to [32, 512, 1] is scaling by the gate itself: the reshaped array holds at
    (b, c, 0) the gate's entry (b, c). -/
theorem scaleRows1_reshape (x : SX.Idx → EReal) (g : SG.Idx → EReal) (h : SG.ShapeCasts SG1) :
    scaleRows1 x (fun i => shapeCast SG1 g h i) = scaleRows x g := by
  funext i
  unfold scaleRows1 scaleRows
  exact congrArg (x i * ·) (Cert.LibTrailingUnit.shapeCast_ab_ab1_apply g h (i 0) (i 1) (0 : Fin 1))

/-- THE RESULT of the kernel program: the input as launched with every row multiplied by the gate of the matrix of
    its row means. -/
theorem result (c : Dev nD) :
    W5 m ρ c (Proc.devRef .tc main_v19)
      = scaleRows (m ((c : Thread nD τ).loc main_arg0))
          (excite (F := Ideal) (rowMean (m ((c : Thread nD τ).loc main_arg0))) (m ((c : Thread nD τ).loc main_arg1))
            (m ((c : Thread nD τ).loc main_arg2)) (m ((c : Thread nD τ).loc main_arg3)) (m ((c : Thread nD τ).loc main_arg4))) := by
  refine (W5_arr m ρ c 2).trans ?_
  refine (Scale.scaled (V4 m ρ) c).trans ?_
  show scaleRows1 (W4 m ρ c (Proc.devRef .tc main_arg0)) (W4 m ρ c (Proc.devRef .tc main_v18)) = _
  rw [W4_arg0, W4_gate, W1_pooled, W1_arg1, W1_arg2, W1_arg3, W1_arg4]
  exact scaleRows1_reshape _ _ _

end Cert.KernelIdeal.Whole

end
-- ==== Proof.RefValue.lean ====
/-
  The reference, read stage by stage: its pooled matrix is the matrix of row means (the host's sum over the
  last axis starts from zero, then the quotient by 4096), its gate is the shared gate function of that matrix,
  and its result multiplies every entry of the input by the gate of its row (the gate broadcast along the
  trailing axes reads, at (b, c, l), the gate's entry (b, c)).
-/
import proofs.«131503_j1752346657530_1_alg».proof.Proof.Gen.ReferenceIdeal.Read
import proofs.«131503_j1752346657530_1_alg».proof.Proof.Gate
import proofs.«131503_j1752346657530_1_alg».proof.Proof.Spec

noncomputable section

namespace Cert.ReferenceIdeal.RefValue

open Cert.ReferenceIdeal Cert.ReferenceIdeal.Gen Cert.ReferenceIdeal.Read Cert.SqueezeExcite
open Idealize.ShloMosaic Idealize.ShloMosaic.ValueIdx

/-- The reference's mean over the last axis is the matrix of row means. -/
theorem mean_eq (x0 : (⟨S32x512x4096, .f32⟩ : BufTy).Contents (Elt Ideal)) :
    val_main_v2 (F := Ideal) x0 = rowMean x0 := by
  funext i
  rw [val_main_v2_apply, val_main_v0_apply, val_main_v1_apply, val_main_cst_apply, val_main_cst_0_apply]
  unfold rowMean
  simp only [Ideal.hostDivf_def, Ideal.ofBits_def]
  rw [Ideal.ofBits_zero_f32, zero_add]
  exact congrArg (Ideal.div · _) (Finset.sum_congr rfl fun k _ => congrArg x0 (funext fun a => Fin.ext (by
    match a with
    | ⟨0, _⟩ => rfl
    | ⟨1, _⟩ => rfl
    | ⟨2, _⟩ => rfl)))

/-- The reference's gate is the shared gate function applied to its pooled matrix and the parameters: the
    same operations with the same constants, term for term. -/
theorem gate_eq (x0 : (⟨S32x512x4096, .f32⟩ : BufTy).Contents (Elt Ideal)) (x1 : (⟨S256x512, .f32⟩ : BufTy).Contents (Elt Ideal))
    (x2 : (⟨S256, .f32⟩ : BufTy).Contents (Elt Ideal)) (x3 : (⟨S512x256, .f32⟩ : BufTy).Contents (Elt Ideal))
    (x4 : (⟨S512, .f32⟩ : BufTy).Contents (Elt Ideal)) :
    val_main_v19 (F := Ideal) x0 x1 x2 x3 x4
      = Cert.KernelIdeal.Gate.excite (F := Ideal) (val_main_v2 (F := Ideal) x0) x1 x2 x3 x4 := rfl

/-- The reference's result is the input with every row scaled by the gate of the row means. -/
theorem result_eq (x0 : (⟨S32x512x4096, .f32⟩ : BufTy).Contents (Elt Ideal)) (x1 : (⟨S256x512, .f32⟩ : BufTy).Contents (Elt Ideal))
    (x2 : (⟨S256, .f32⟩ : BufTy).Contents (Elt Ideal)) (x3 : (⟨S512x256, .f32⟩ : BufTy).Contents (Elt Ideal))
    (x4 : (⟨S512, .f32⟩ : BufTy).Contents (Elt Ideal)) :
    val_main_v22 (F := Ideal) x0 x1 x2 x3 x4
      = scaleRows x0 (Cert.KernelIdeal.Gate.excite (F := Ideal) (rowMean x0) x1 x2 x3 x4) := by
  funext i
  rw [val_main_v22_apply, val_main_v21_apply, val_main_v20_apply, gate_eq, mean_eq]
  unfold scaleRows
  exact congrArg (fun j => x0 i * Cert.KernelIdeal.Gate.excite (F := Ideal) (rowMean x0) x1 x2 x3 x4 j)
    (funext fun a => Fin.ext (by
      match a with
      | ⟨0, _⟩ => rfl
      | ⟨1, _⟩ => rfl))

end Cert.ReferenceIdeal.RefValue

end
-- ==== Proof.lean ====
/-
  A squeeze-and-excite layer over an input x of shape [32, 512, 4096], against its jnp reference.

  Both programs compute, over the extended reals,
      s (b, c)    = (∑ l < 4096, x (b, c, l)) / 4096                       the mean of each row,
      g           = 1 / (1 + exp (−(max (s · W1ᵀ + b1, 0) · W2ᵀ + b2)))      the gate, a two-layer network,
      out (b, c, l) = x (b, c, l) · g (b, c)                                 every row scaled by its gate.
  The kernel program does the first and the last step in two pipelined kernels (row sums over 8 × 128 × 4096 blocks;
  the product over 4 × 128 × 4096 blocks with the gate reshaped to [32, 512, 1]) and the gate on the host; the
  reference does everything on the host. The two row means are the same sum and the same quotient; the gate is the
  same chain of operations with the same constants on both sides, so it is carried as one function of the row means
  and never opened; the reshaped gate at (b, c, 0) and the gate broadcast along the last axis at (b, c, l) are both
  the gate's entry (b, c). No law of arithmetic beyond 0 + a = a is used, so the inputs' finiteness is not needed.

  The frames of the two kernel programs are the generated ones; the reference's frame is its generated run with the
  result dropped; the idealization rewrote nothing, so `preserves` is trivial.
-/
import proofs.«131503_j1752346657530_1_alg».proof.Defs
import proofs.«131503_j1752346657530_1_alg».proof.Proof.Gen.Kernel
import proofs.«131503_j1752346657530_1_alg».proof.Proof.Gen.Kernel.Frame
import proofs.«131503_j1752346657530_1_alg».proof.Proof.Gen.KernelIdeal
import proofs.«131503_j1752346657530_1_alg».proof.Proof.Gen.KernelIdeal.Frame
import proofs.«131503_j1752346657530_1_alg».proof.Proof.Gen.ReferenceIdeal
import proofs.«131503_j1752346657530_1_alg».proof.Proof.Gen.Pre_finite_inputs
import proofs.«131503_j1752346657530_1_alg».proof.Proof.Gen.ReferenceIdeal.Run
import proofs.«131503_j1752346657530_1_alg».proof.Proof.Gen.ReferenceIdeal.Read
import proofs.«131503_j1752346657530_1_alg».proof.Proof.KernelRun
import proofs.«131503_j1752346657530_1_alg».proof.Proof.Whole
import proofs.«131503_j1752346657530_1_alg».proof.Proof.RefValue
import Idealize.ShloMosaic.Adequacy
import Idealize.ShloMosaic.Init

noncomputable section

namespace Cert.Proof

open Idealize.ShloMosaic Idealize.ShloMosaic.TcCoe Idealize.SL.Sem
open Cert.SqueezeExcite Cert.KernelIdeal.Gate

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the input scaled, row by row, by the gate of its row means. -/
theorem algebraic : Cert.algebraic_KernelIdeal_ReferenceIdeal := by
  intro m ρ m' ρ' _ hagree
  refine ⟨fun c => scaleRows (m ((c.tc : Thread Cert.KernelIdeal.nD Cert.KernelIdeal.τ).loc Cert.KernelIdeal.main_arg0))
      (excite (F := Ideal) (rowMean (m ((c.tc : Thread Cert.KernelIdeal.nD Cert.KernelIdeal.τ).loc Cert.KernelIdeal.main_arg0)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.Whole.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, Cert.ReferenceIdeal.RefValue.result_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
